-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x64 : Shape := ⟨2, ![256, 64]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S800000 : S_.BroadcastsInDim S800000 (![] : Fin 0 → Fin S800000.rank)
  reducesTo_S800000_S_d0 : S800000.ReducesTo [0] S_

variable [Facts]

def fn {F : FTy → Type} [FloatOps F] (main_arg0 : FVec F S50000x256 .f32) (main_arg1 : FVec F S256x64 .f32) (main_arg2 : IVec S800000 32) (main_arg3 : IVec S800000 32) (main_arg4 : FVec F S800000 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S800000 .f32 := Host.absf main_arg4
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  main_v13
-- ==== Kernel.lean ====
abbrev S50000x256 : Shape := ⟨2, ![50000, 256]⟩
abbrev S256x64 : Shape := ⟨2, ![256, 64]⟩
abbrev S800000 : Shape := ⟨1, ![800000]⟩
abbrev S50000x64 : Shape := ⟨2, ![50000, 64]⟩
abbrev S5000x256 : Shape := ⟨2, ![5000, 256]⟩
abbrev S5000x64 : Shape := ⟨2, ![5000, 64]⟩
abbrev S_ : Shape := ⟨0, ![]⟩
abbrev S800000x1 : Shape := ⟨2, ![800000, 1]⟩
abbrev S800000x64 : Shape := ⟨2, ![800000, 64]⟩

abbrev nBuf : Space → Nat
  | .hbm => 23
  | .vmem => 5
  | .smem => 0
  | _ => 0

abbrev bufTy : (tb : Table) → Fin (tcTables nBuf tb) → BufTy
  | .hbm, ⟨0, _⟩ => ⟨S50000x256, .f32⟩
  | .hbm, ⟨1, _⟩ => ⟨S256x64, .f32⟩
  | .hbm, ⟨2, _⟩ => ⟨S800000, .i32⟩
  | .hbm, ⟨3, _⟩ => ⟨S800000, .i32⟩
  | .hbm, ⟨4, _⟩ => ⟨S800000, .f32⟩
  | .hbm, ⟨5, _⟩ => ⟨S256x64, .bf16⟩
  | .hbm, ⟨6, _⟩ => ⟨S50000x64, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S800000x1, .f32⟩
  | .hbm, ⟨17, _⟩ => ⟨S800000x64, .f32⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x64, .bf16⟩
  | .local _ .vmem, ⟨3, _⟩ => ⟨S5000x64, .f32⟩
  | .local _ .vmem, ⟨4, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S5000x256_S5000x256_0_0 : ∀ a, (![0, 0] : Fin 2 → Nat) a + S5000x256.size a ≤ S5000x256.size a
  h_S5000x256 : 0 < S5000x256.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  dot_S5000x256_S256x64_S5000x64_1_0_0_1_n_n_wf : DotDims.WF S5000x256 S256x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .bf16 = 32 ∨ (Rect.block (s := S256x64) S256x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x256 : Shape := ⟨2, ![50000, 256]⟩
abbrev S256x64 : Shape := ⟨2, ![256, 64]⟩
abbrev S800000 : Shape := ⟨1, ![800000]⟩
abbrev S50000x64 : Shape := ⟨2, ![50000, 64]⟩
abbrev S_ : Shape := ⟨0, ![]⟩
abbrev S800000x1 : Shape := ⟨2, ![800000, 1]⟩
abbrev S800000x64 : Shape := ⟨2, ![800000, 64]⟩

abbrev nBuf : Space → Nat
  | .hbm => 22
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x64, .f32⟩
  | .hbm, ⟨2, _⟩ => ⟨S800000, .i32⟩
  | .hbm, ⟨3, _⟩ => ⟨S800000, .i32⟩
  | .hbm, ⟨4, _⟩ => ⟨S800000, .f32⟩
  | .hbm, ⟨5, _⟩ => ⟨S50000x64, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x64, .f32⟩
  | .hbm, ⟨15, _⟩ => ⟨S800000x1, .f32⟩
  | .hbm, ⟨16, _⟩ => ⟨S800000x64, .f32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Projection.lean ====
/-
  The dense projection both programs compute before their common sparse stage: for node features
  `h : [50000, 256]` and weights `W : [256, 64]`, entry `(r, c)` of `h · W` is the sum over the 256
  input features `k` of `h[r, k] · W[k, c]`, read on the extended reals. It is stated once, over literal
  shapes and with indices built from coordinates, so that the reference's single `dot_general` and the
  kernel's ten row blocks (5000 rows each, every block contracted whole against all of `W`) can both be
  shown to be this one function.
-/
import Idealize.ShloMosaic.Lib.ValueIdx
import Idealize.ShloMosaic.PureOps.Ideal.Laws

noncomputable section

namespace Cert.Projection

open Idealize.ShloMosaic Idealize.ShloMosaic.ValueIdx

/-- The node-feature array's shape, the weight's and the projection's. -/
abbrev Feat : Shape := ⟨2, ![50000, 256]⟩
abbrev Wgt : Shape := ⟨2, ![256, 64]⟩
abbrev Out : Shape := ⟨2, ![50000, 64]⟩

/-- `(h · W)[r, c] = ∑ k, h[r, k] · W[k, c]` on the extended reals. -/
def proj (h : Feat.Idx → EReal) (W : Wgt.Idx → EReal) : Out.Idx → EReal :=
  fun i => ∑ k : Fin 256, h (ix2 (i 0) k) * W (ix2 k (i 1))

theorem proj_apply (h : Feat.Idx → EReal) (W : Wgt.Idx → EReal) (r : Fin 50000) (c : Fin 64) :
    proj h W (ix2 r c) = ∑ k : Fin 256, h (ix2 r k) * W (ix2 k c) := rfl

end Cert.Projection

end
-- ==== Proof.RefProjection.lean ====
/-
  The reference's first operation, jnp's `h @ W` (one `dot_general` contracting the feature axis), read at
  the ideal values, is the projection `Cert.Projection.proj`: entry `(r, c)` is `∑ k, h[r, k] · W[k, c]`.
  The generated read lemma already states the element as a sum over `k : Fin 256` of the operands at two
  index functions; what is left is that those index functions are `(r, k)` and `(k, c)`.
-/
import proofs.«400234_j89859305766958_3_alg».proof.Proof.Gen.ReferenceIdeal.Read
import proofs.«400234_j89859305766958_3_alg».proof.Proof.Projection

noncomputable section

namespace Cert.RefProjection

open Idealize.ShloMosaic Idealize.ShloMosaic.ValueIdx Cert.ReferenceIdeal Cert.ReferenceIdeal.Read Cert.Projection

/-- The left operand is read at row `i 0`, feature `k`. -/
theorem lidx_eq (i : S50000x64.Idx) (k : Fin 256) : lidx_main_v0 i k = ix2 (i 0) k :=
  funext fun a => Fin.ext (by match a with | ⟨0, _⟩ => rfl | ⟨1, _⟩ => rfl)

/-- The right operand is read at feature `k`, column `i 1`. -/
theorem ridx_eq (i : S50000x64.Idx) (k : Fin 256) : ridx_main_v0 i k = ix2 k (i 1) :=
  funext fun a => Fin.ext (by match a with | ⟨0, _⟩ => rfl | ⟨1, _⟩ => rfl)

/-- jnp's `h @ W` at the ideal values is the projection. -/
theorem dot_eq_proj (h : FVec Ideal S50000x256 .f32) (W : FVec Ideal S256x64 .f32) :
    Host.dotGeneral (F := Ideal) dot_S50000x256_S256x64_S50000x64_1_0_0_1_n_n none h W = proj h W := by
  funext i
  refine (val_main_v0_apply h W i).trans ?_
  simp only [lidx_eq, ridx_eq]
  rfl

end Cert.RefProjection

end
-- ==== Proof.SparseStage.lean ====
/-
  The sparse stage both programs run after the projection, as one function of the projected array `hp`, the
  edge endpoints `row`, `col` and the edge weights `vals`: negative source indices are wrapped by adding the
  node count, row `row[e]` of `hp` is gathered for every edge `e` and scaled by `vals[e]`, and the scaled
  rows are scatter-added into a zero array at row `col[e]`. The two programs print the very same sequence of
  operations with the same dimension numbers, each over its own copy of the shape and dimension records, so the
  stage is written here once per vocabulary and the two are equal by unfolding the records: nothing about what a
  gather or a scatter-add computes is needed, only that both sides apply them to the same arguments.
-/
import proofs.«400234_j89859305766958_3_alg».proof.Proof.Gen.KernelIdeal
import proofs.«400234_j89859305766958_3_alg».proof.Proof.Gen.ReferenceIdeal
import Idealize.ShloMosaic.PureOps.Ideal

noncomputable section

namespace Cert.SparseStage

open Idealize.ShloMosaic

section KernelVocabulary
open Cert.KernelIdeal Cert.KernelIdeal.Facts₀

/-- The stage over the kernel program's records. -/
def ofKernel (hp : FVec Ideal S50000x64 .f32) (row col : IVec S800000 32) (vals : FVec Ideal S800000 .f32) :
    FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 col)
    (mulf
      (Host.gather gather_S50000x64_S800000x1_S800000x64_1_0_n_n_0_1_164 hp
        (broadcastInDim S800000x1 ![0] bcast_S800000_S800000x1_0
          (select (cmpi .slt row (broadcastInDim S800000 ![] bcast_S_S800000 (constantI S_ 32 0#32)))
            (addi row (broadcastInDim S800000 ![] bcast_S_S800000 (constantI S_ 32 50000#32))) row)))
      (broadcastInDim S800000x64 ![0, 1] bcast_S800000x1_S800000x64_0_1
        (broadcastInDim S800000x1 ![0] bcast_S800000_S800000x1_0 vals)))

end KernelVocabulary

section ReferenceVocabulary
open Cert.ReferenceIdeal Cert.ReferenceIdeal.Facts₀

/-- The stage over the reference program's records. -/
def ofReference (hp : FVec Ideal S50000x64 .f32) (row col : IVec S800000 32) (vals : FVec Ideal S800000 .f32) :
    FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 col)
    (mulf
      (Host.gather gather_S50000x64_S800000x1_S800000x64_1_0_n_n_0_1_164 hp
        (broadcastInDim S800000x1 ![0] bcast_S800000_S800000x1_0
          (select (cmpi .slt row (broadcastInDim S800000 ![] bcast_S_S800000 (constantI S_ 32 0#32)))
            (addi row (broadcastInDim S800000 ![] bcast_S_S800000 (constantI S_ 32 50000#32))) row)))
      (broadcastInDim S800000x64 ![0, 1] bcast_S800000x1_S800000x64_0_1
        (broadcastInDim S800000x1 ![0] bcast_S800000_S800000x1_0 vals)))

end ReferenceVocabulary

/-- The two spellings are one function: the records have the same fields. -/
theorem ofReference_eq (hp : FVec Ideal Cert.KernelIdeal.S50000x64 .f32) (row col : IVec Cert.KernelIdeal.S800000 32)
    (vals : FVec Ideal Cert.KernelIdeal.S800000 .f32) :
    ofReference hp row col vals = ofKernel hp row col vals := rfl

end Cert.SparseStage

end
-- ==== Proof.KernelPayload.lean ====
/-
  What one grid point of the kernel computes: with `x0` the point's 5000 × 256 block of node features and
  `x1` the whole 256 × 64 weight, the body stores `matmul(bf16(x0), x1, 0)`. At the ideal values the change
  of format is the identity and the product into a zero accumulator is the plain sum, so entry `(p, q)` of
  the stored block is `∑ k, x0[p, k] · x1[k, q]`.
-/
import proofs.«400234_j89859305766958_3_alg».proof.Proof.Gen.KernelIdeal.Skeleton
import proofs.«400234_j89859305766958_3_alg».proof.Proof.Projection
import Idealize.ShloMosaic.Lib.ValueIdx
import Idealize.ShloMosaic.Lib.Pipeline.Value
import Idealize.ShloMosaic.PureOps.Ideal.Laws

noncomputable section

namespace Cert.KernelPayload

open Idealize.ShloMosaic Idealize.ShloMosaic.ValueIdx Cert.KernelIdeal Cert.KernelIdeal.Gen Cert.Projection

/-- The left operand's row is the output's row. -/
theorem lhs_row (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- The left operand's column is the contracted feature. -/
theorem lhs_feat (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
/-- The right operand's row is the contracted feature. -/
theorem rhs_feat (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
/-- The right operand's column is the output's column. -/
theorem rhs_col (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The stored block, entry by entry: the row of the feature block against the column of the weight. -/
theorem pay_apply (x0 : Vec Ideal S5000x256 .f32) (x1 : Vec Ideal S256x64 .bf16) (p : Fin 5000) (q : Fin 64) :
    k0_pay1 (F := Ideal) x0 x1 (ix2 p q) = ∑ k : Fin 256, x0 (ix2 p k) * x1 (ix2 k q) := by
  unfold k0_pay1
  simp only [matmul]
  rw [Ideal.matmul_constant_zero_apply, ← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 p q) ((contrEquiv1 dot_S5000x256_S256x64_S5000x64_1_0_0_1_n_n 256 rfl rfl).symm k) = ix2 p k := funext fun a => Fin.ext (by
    match a with
    | ⟨0, _⟩ => exact lhs_row _ _
    | ⟨1, _⟩ => exact (lhs_feat _ _).trans hk)
  have er : dot_S5000x256_S256x64_S5000x64_1_0_0_1_n_n.rhsIdx (ix2 p q) ((contrEquiv1 dot_S5000x256_S256x64_S5000x64_1_0_0_1_n_n 256 rfl rfl).symm k) = ix2 k q := funext fun a => Fin.ext (by
    match a with
    | ⟨0, _⟩ => exact (rhs_feat _ _).trans hk
    | ⟨1, _⟩ => exact rhs_col _ _)
  rw [el, er, shapeCast_self]
  rfl

/-- A stored entry is an entry of the projection of whole arrays `A`, `B` as soon as the feature block's row
    `p` is row `i 0` of `A` and the weight block's column `q` is column `i 1` of `B`. -/
theorem pay_eq_proj (A : Feat.Idx → EReal) (B : Wgt.Idx → EReal) (x0 : Vec Ideal S5000x256 .f32) (x1 : Vec Ideal S256x64 .bf16)
    (i : Out.Idx) (p : Fin 5000) (q : Fin 64)
    (h0 : ∀ k : Fin 256, x0 (ix2 p k) = A (ix2 (i 0) k)) (h1 : ∀ k : Fin 256, x1 (ix2 k q) = B (ix2 k (i 1))) :
    k0_pay1 (F := Ideal) x0 x1 (ix2 p q) = proj A B i := by
  rw [pay_apply]
  unfold proj
  exact Finset.sum_congr rfl fun k _ => by rw [h0 k, h1 k]

end Cert.KernelPayload

end
-- ==== Proof.KernelBlocks.lean ====
/-
  From the kernel's ten row blocks to the whole projected array. Grid point `t` reads rows
  `5000·t … 5000·t + 4999` of the node features and the whole weight, and writes back rows
  `5000·t … 5000·t + 4999` of the output; by the payload lemma that block is the same rows of
  `proj h W`. The ten blocks tile the 50000 rows (row `r` lies in block `r / 5000`), so the array the
  region leaves is `proj h W`. The weight the region finds is the host's conversion of `W` to bf16,
  which at the ideal values is `W` itself.
-/
import proofs.«400234_j89859305766958_3_alg».proof.Proof.Gen.KernelIdeal.Frame
import proofs.«400234_j89859305766958_3_alg».proof.Proof.KernelPayload
import proofs.«400234_j89859305766958_3_alg».proof.Proof.Projection
import Idealize.ShloMosaic.Lib.StableHlo.Run
import Idealize.ShloMosaic.Lib.Pipeline.Value

set_option maxRecDepth 16384

noncomputable section

namespace Cert.KernelBlocks

open Idealize.ShloMosaic Idealize.ShloMosaic.TcCoe Idealize.ShloMosaic.ValueIdx Idealize.SL.Sem
open Cert.KernelIdeal Cert.KernelIdeal.Gen Cert.Projection Cert.KernelPayload
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The weight as the region finds it: the host converted `W` to bf16 before the call, and at the ideal
    values a change of format is the identity. -/
theorem V_wgt (c : Dev nD) : (V m c main_v0 : S256x64.Idx → EReal) = m ((c : Thread nD τ).loc main_arg1) := by
  show StableHlo.after hostOps0 (fun b => m (c, b)) (Proc.devRef .tc main_v0) = _
  after_results
  rfl

/-- The printed index maps over the ten points: the feature block and the output block sit at the same block
    row, every other block index is zero. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every block row of the output is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the projection of the arrays the region finds. -/
theorem flushed_eq (c : Dev nD) (t : Fin cfg0.N) :
    (dats m 0 c).flushed 2 t = ((cfg0.win 2).blk t).view.read (Elt Ideal) (proj (V m c main_arg0) (V m c main_v0)) := by
  show (cfg0.win 2).cut (grid0.coords t) ((dats m 0 c).after 2 t) = _
  rw [after0_2]
  unfold out0_2
  rw [View.canon_unit_zero hz]
  simp only [View.ld_unit_zero (S := S5000x256) hz, View.ld_unit_zero (S := S256x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  show k0_pay1 (F := Ideal) (iblk m c 0 t) (iblk m c 1 t) (ix2 p q)
    = proj (V m c main_arg0) (V m c main_v0) (((cfg0.win 2).blk t).view.emb (ix2 p q))
  refine pay_eq_proj _ _ _ _ _ p q (fun k => ?_) (fun k => ?_)
  · show V m c main_arg0 (((cfg0.win 0).blk t).view.emb (ix2 p k))
      = V m c main_arg0 (ix2 (n0 := 50000) (n1 := 256) ((((cfg0.win 2).blk t).view.emb (ix2 p q)) 0) k)
    refine congrArg (V m c main_arg0) ?_
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  · show V m c main_v0 (((cfg0.win 1).blk t).view.emb (ix2 k q))
      = V m c main_v0 (ix2 (n0 := 256) (n1 := 64) k ((((cfg0.win 2).blk t).view.emb (ix2 p q)) 1))
    refine congrArg (V m c main_v0) ?_
    funext a; apply Fin.ext
    match a with
    | ⟨0, _⟩ => show win0_1.index t (0 : Fin 2) * 256 + 1 * k.val = k.val; omega
    | ⟨1, _⟩ => show win0_1.index t (1 : Fin 2) * 64 + 1 * q.val = win0_2.index t (1 : Fin 2) * 64 + 1 * q.val; omega

/-- An index of the output array is in point `t`'s block iff each coordinate is in the block's range. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v1).slice (win0_2.rect t)).set ↔ _
  rw [View.set_slice_whole, Rect.mem_set_unit]
  exact Iff.rfl

/-- The ten blocks tile the array: row `r` is in block `r / 5000`. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The array the region leaves is the projection of the launched features and weight. -/
theorem final (c : Dev nD) :
    (dats m 0 c).arrAt 2 cfg0.N = proj (m ((c : Thread nD τ).loc main_arg0)) (m ((c : Thread nD τ).loc main_arg1)) := by
  rw [(dats m 0 c).arrAt_eq_of_cover 2 (proj (V m c main_arg0) (V m c main_v0)) (fun t _ => flushed_eq m c t) cover,
    V_main_arg0, V_wgt]

end Cert.KernelBlocks

end
-- ==== Proof.KernelRun.lean ====
/-
  The kernel program's run with its result named. The region leaves the projection `proj h W` in its output
  array (the blocks lemma) and every other buffer as it found it; the lines after the region then apply the
  sparse stage to that array and to the launched `row`, `col`, `vals`. So the program ends with its result at
  `SparseStage.ofKernel (proj h W) row col vals` and its arguments unchanged.
-/
import proofs.«400234_j89859305766958_3_alg».proof.Proof.KernelBlocks
import proofs.«400234_j89859305766958_3_alg».proof.Proof.SparseStage

set_option maxRecDepth 16384

noncomputable section

namespace Cert.KernelRun

open Idealize.ShloMosaic Idealize.ShloMosaic.TcCoe Idealize.SL.Sem
open Cert.KernelIdeal Cert.KernelIdeal.Gen Cert.Projection Cert.KernelBlocks
open Idealize.ShloMosaic.Pipeline (Dat)

variable (m : (ℓ : Loc nD τ sig) → Buf (Elt Ideal) ℓ) (ρ : Dev nD → PrngReg)

/-- After the region the output array holds the projection. -/
theorem left_hp (c : Dev nD) :
    Pipeline.withArrays (cfgs 0).spec c (V0 m c) (fun w => (dats m 0 c).arrAt w (cfgs 0).N) (Proc.devRef .tc main_v1)
      = proj (m ((c : Thread nD τ).loc main_arg0)) (m ((c : Thread nD τ).loc main_arg1)) :=
  (Pipeline.withArrays_arr spec0 launch0.win.arr_inj c _ _ 2).trans (final m c)

/-- The region touches none of `row`, `col`, `vals`: the tail reads them as launched. -/
theorem left_row (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans (V_main_arg2 m c)
theorem left_col (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans (V_main_arg3 m c)
theorem left_vals (c : Dev nD) :
    Pipeline.withArrays (cfgs 0).spec c (V0 m c) (fun w => (dats m 0 c).arrAt w (cfgs 0).N) (Proc.devRef .tc main_arg4)
      = m ((c : Thread nD τ).loc main_arg4) :=
  (Pipeline.withArrays_of_ne _ c (V0 m c) _ main_arg4 (by exact (by decide : ∀ w, Pipeline.arrRef spec0 w ≠ main_arg4))).trans (V_main_arg4 m c)

/-- The result buffer after the lines that follow the region. -/
theorem tail_value (c : Dev nD) :
    Pipeline.afterTail₀ cfgs (dats m) 0 (V0 m) [hostOps1] c main_v14
      = Cert.SparseStage.ofKernel (proj (m ((c : Thread nD τ).loc main_arg0)) (m ((c : Thread nD τ).loc main_arg1)))
          (m ((c : Thread nD τ).loc main_arg2)) (m ((c : Thread nD τ).loc main_arg3)) (m ((c : Thread nD τ).loc main_arg4)) := by
  unfold Pipeline.afterTail₀
  show StableHlo.after hostOps1 _ (Proc.devRef .tc main_v14) = _
  after_results
  rw [left_hp, left_row, left_col, left_vals]
  rfl

/-- Every weakly fair execution of the kernel program ends with the result at the sparse stage of the projection
    and the arguments as launched. -/
theorem run : θ_run defs (onTc (τ := τ) (main (F := Ideal))) ⟨m, fun _ => 0, ρ⟩ (fun r => ∀ c : Dev nD,
      r.2.mem ((c.tc : Thread nD τ).loc main_v14)
        = Cert.SparseStage.ofKernel (proj (m ((c.tc : Thread nD τ).loc main_arg0)) (m ((c.tc : Thread nD τ).loc main_arg1)))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v14 (Pipeline.mem_restRefs_of main_v14 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelRun

end
-- ==== Proof.lean ====
/-
  A graph layer: project the node features, then aggregate along the edges.
  Both programs compute `out[i] = ∑ over edges e with col[e] = i of vals[e] · (h · W)[row[e]]` for
  `h : [50000, 256]`, `W : [256, 64]` and 800000 edges `(row, col, vals)`.

  The kernel program converts `W` to bf16, runs a ten-point grid in which point `t` multiplies rows
  `5000·t … 5000·t + 4999` of `h` (converted to bf16) by the whole of `W` into a zero accumulator, and then
  gathers, scales and scatter-adds on the host. The reference does one `dot_general` and the same host stage.
  On the extended reals a change of float format is the identity and a product into a zero accumulator is the
  plain sum over the 256 features, so every row block of the kernel is the same rows of `h · W`
  (`Cert.Projection.proj`), the ten blocks tile the 50000 rows, and the reference's `dot_general` is that same
  sum. After the projection the two programs apply the same operations to the same arguments, so the results agree
  whatever a gather or a scatter-add does with out-of-range indices: no fact about the inputs is used, and the
  precondition is never opened. The idealization rewrote nothing, so `preserves` is trivial.
-/
import proofs.«400234_j89859305766958_3_alg».proof.Defs
import proofs.«400234_j89859305766958_3_alg».proof.Proof.Gen.Kernel
import proofs.«400234_j89859305766958_3_alg».proof.Proof.Gen.Kernel.Skeleton
import proofs.«400234_j89859305766958_3_alg».proof.Proof.Gen.Kernel.Launch
import proofs.«400234_j89859305766958_3_alg».proof.Proof.Gen.Kernel.Points
import proofs.«400234_j89859305766958_3_alg».proof.Proof.Gen.Kernel.Frame
import proofs.«400234_j89859305766958_3_alg».proof.Proof.Gen.KernelIdeal
import proofs.«400234_j89859305766958_3_alg».proof.Proof.Gen.KernelIdeal.Skeleton
import proofs.«400234_j89859305766958_3_alg».proof.Proof.Gen.KernelIdeal.Launch
import proofs.«400234_j89859305766958_3_alg».proof.Proof.Gen.KernelIdeal.Points
import proofs.«400234_j89859305766958_3_alg».proof.Proof.Gen.KernelIdeal.Frame
import proofs.«400234_j89859305766958_3_alg».proof.Proof.Gen.ReferenceIdeal
import proofs.«400234_j89859305766958_3_alg».proof.Proof.Gen.Pre_finite_inputs
import proofs.«400234_j89859305766958_3_alg».proof.Proof.Gen.ReferenceIdeal.Run
import proofs.«400234_j89859305766958_3_alg».proof.Proof.Gen.ReferenceIdeal.Read
import proofs.«400234_j89859305766958_3_alg».proof.Proof.RefProjection
import proofs.«400234_j89859305766958_3_alg».proof.Proof.SparseStage
import proofs.«400234_j89859305766958_3_alg».proof.Proof.KernelRun
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ
/-- So does the idealized kernel program. -/
theorem frame_kernelIdeal : Cert.frame_KernelIdeal := fun m ρ _ => Cert.KernelIdeal.Gen.frame m ρ
/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the sparse stage applied to the projection `h · W`: the kernel's ten row blocks
    assemble to it, the reference's `dot_general` is it, and the stage after it is the same function on both sides. -/
theorem algebraic : Cert.algebraic_KernelIdeal_ReferenceIdeal := by
  intro m ρ m' ρ' _ hagree
  refine ⟨_, Cert.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [a0, a1, a2, a3, a4, Cert.RefProjection.dot_eq_proj]
  exact Cert.SparseStage.ofReference_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
